-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x16 .f32) (main_arg6 : FVec F S64x16 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 66
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x16, .f32⟩
  | .hbm, ⟨65, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x16, .f32⟩
  | .local _ .vmem, ⟨14, _⟩ => ⟨S64x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x16, .f32⟩
  | .hbm, ⟨76, _⟩ => ⟨S1x16, .f32⟩
  | .hbm, ⟨77, _⟩ => ⟨S100000x16, .f32⟩
  | .hbm, ⟨78, _⟩ => ⟨S100000x16, .f32⟩
  | .hbm, ⟨79, _⟩ => ⟨S100000x16, .f32⟩
  | .hbm, ⟨80, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelHost.lean ====
/-
  The host side of the two-layer program: what the operations around the two kernel regions leave in the buffers the
  regions read.

  Both layers aggregate the same way. Row 0 of the edge array holds each edge's source node, row 1 its target. A negative
  source is wrapped by adding the node count; the source's feature row is gathered, the gathered rows are added into their
  targets' rows, a vector of ones added into the targets gives each node's in-degree, and each node's summed row is divided
  by the larger of its in-degree and one. That chain is ONE function `meanOver` of (sources, targets, features); nothing
  below opens it, since the other program applies the very same chain.

  The first stretch computes the sources and targets, the mean of the input features and the first bias as a one-row
  matrix. The second reuses the sources and targets, takes the mean of the first region's output and reshapes the second
  bias. No stretch writes an argument, and the first region writes only its output array.
-/
import proofs.«154100_j23630910063032_1_alg».proof.Proof.Gen.KernelIdeal.Frame

set_option maxRecDepth 16384

noncomputable section

namespace Cert.KernelIdeal.Stretch

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-- Each edge's source node: row 0 of the edge array as a vector. -/
def sources (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Each edge's target node: row 1 of the edge array as a vector. -/
def targets (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- Each edge's source with a negative number wrapped around by the node count. -/
def wrapped (src : (⟨S1600000, .i32⟩ : BufTy).Contents (Elt F)) : (⟨S1600000, .i32⟩ : BufTy).Contents (Elt F) :=
  select (cmpi .slt src ((broadcastInDim S1600000 ![] bcast_S_S1600000 : (⟨S_, .i32⟩ : BufTy).Contents (Elt F) → (⟨S1600000, .i32⟩ : BufTy).Contents (Elt F)) (constantI S_ 32 0#32)))
    (addi src ((broadcastInDim S1600000 ![] bcast_S_S1600000 : (⟨S_, .i32⟩ : BufTy).Contents (Elt F) → (⟨S1600000, .i32⟩ : BufTy).Contents (Elt F)) (constantI S_ 32 100000#32)))
    src

/-- Each node's in-degree, at least one, as a column repeated over the 64 features. -/
def degrees (dst : (⟨S1600000, .i32⟩ : BufTy).Contents (Elt F)) : (⟨S100000x64, .f32⟩ : BufTy).Contents (Elt F) :=
  (broadcastInDim S100000x64 ![0, 1] bcast_S100000x1_S100000x64_0_1 : (⟨S100000x1, .f32⟩ : BufTy).Contents (Elt F) → (⟨S100000x64, .f32⟩ : BufTy).Contents (Elt F))
    ((broadcastInDim S100000x1 ![0] bcast_S100000_S100000x1_0 : (⟨S100000, .f32⟩ : BufTy).Contents (Elt F) → (⟨S100000x1, .f32⟩ : BufTy).Contents (Elt F))
      (maximumf
        (Host.scatterAdd scatter_S100000_S1600000x1_S1600000_n_0_0_1
          ((broadcastInDim S100000 ![] bcast_S_S100000 : (⟨S_, .f32⟩ : BufTy).Contents (Elt F) → (⟨S100000, .f32⟩ : BufTy).Contents (Elt F)) (constant S_ .f32 0x00000000#32))
          ((broadcastInDim S1600000x1 ![0] bcast_S1600000_S1600000x1_0 : (⟨S1600000, .i32⟩ : BufTy).Contents (Elt F) → (⟨S1600000x1, .i32⟩ : BufTy).Contents (Elt F)) dst)
          ((broadcastInDim S1600000 ![] bcast_S_S1600000 : (⟨S_, .f32⟩ : BufTy).Contents (Elt F) → (⟨S1600000, .f32⟩ : BufTy).Contents (Elt F)) (constant S_ .f32 0x3F800000#32)))
        ((broadcastInDim S100000 ![] bcast_S_S100000 : (⟨S_, .f32⟩ : BufTy).Contents (Elt F) → (⟨S100000, .f32⟩ : BufTy).Contents (Elt F)) (constant S_ .f32 0x3F800000#32))))

/-- The mean of the features over each node's incoming edges: gathered at the sources, summed into the targets, divided
    by the in-degree (at least one). -/
def meanOver (src dst : (⟨S1600000, .i32⟩ : BufTy).Contents (Elt F)) (feat : (⟨S100000x64, .f32⟩ : BufTy).Contents (Elt F)) : (⟨S100000x64, .f32⟩ : BufTy).Contents (Elt F) :=
  Host.divf
    (Host.scatterAdd scatter_S100000x64_S1600000x1_S1600000x64_1_0_0_1
      ((broadcastInDim S100000x64 ![] bcast_S_S100000x64 : (⟨S_, .f32⟩ : BufTy).Contents (Elt F) → (⟨S100000x64, .f32⟩ : BufTy).Contents (Elt F)) (constant S_ .f32 0x00000000#32))
      ((broadcastInDim S1600000x1 ![0] bcast_S1600000_S1600000x1_0 : (⟨S1600000, .i32⟩ : BufTy).Contents (Elt F) → (⟨S1600000x1, .i32⟩ : BufTy).Contents (Elt F)) dst)
      (Host.gather gather_S100000x64_S1600000x1_S1600000x64_1_0_n_n_0_1_164 feat
        ((broadcastInDim S1600000x1 ![0] bcast_S1600000_S1600000x1_0 : (⟨S1600000, .i32⟩ : BufTy).Contents (Elt F) → (⟨S1600000x1, .i32⟩ : BufTy).Contents (Elt F)) (wrapped src))))
    (degrees dst)

variable (m : (ℓ : Loc nD τ sig) → Buf (Elt F) ℓ) (ρ : Dev nD → PrngReg)

/-! ## The first stretch -/

theorem first_sources (c : Dev nD) :
    W1 m ρ c (Proc.devRef .tc main_v1) = sources (m ((c : Thread nD τ).loc main_arg1)) := by
  show StableHlo.after hostOps0 (W0 m ρ c) (Proc.devRef .tc main_v1) = _
  after_results_simp
  rfl

theorem first_targets (c : Dev nD) :
    W1 m ρ c (Proc.devRef .tc main_v3) = targets (m ((c : Thread nD τ).loc main_arg1)) := by
  show StableHlo.after hostOps0 (W0 m ρ c) (Proc.devRef .tc main_v3) = _
  after_results_simp
  rfl

theorem first_mean (c : Dev nD) :
    W1 m ρ c (Proc.devRef .tc main_v22)
      = meanOver (sources (m ((c : Thread nD τ).loc main_arg1))) (targets (m ((c : Thread nD τ).loc main_arg1))) (m ((c : Thread nD τ).loc main_arg0)) := by
  show StableHlo.after hostOps0 (W0 m ρ c) (Proc.devRef .tc main_v22) = _
  after_results_simp
  rfl

theorem first_bias (c : Dev nD) :
    W1 m ρ c (Proc.devRef .tc main_v23) = shapeCast S1x64 (m ((c : Thread nD τ).loc main_arg4)) shapeCasts_S64_S1x64 := by
  show StableHlo.after hostOps0 (W0 m ρ c) (Proc.devRef .tc main_v23) = _
  after_results_simp
  rfl

/-! The first stretch writes no argument. -/

theorem first_keeps_features (c : Dev nD) :
    W1 m ρ c (Proc.devRef .tc main_arg0) = m ((c : Thread nD τ).loc main_arg0) := by
  show StableHlo.after hostOps0 (W0 m ρ c) (Proc.devRef .tc main_arg0) = _
  after_results_simp

theorem first_keeps_W1l (c : Dev nD) :
    W1 m ρ c (Proc.devRef .tc main_arg2) = m ((c : Thread nD τ).loc main_arg2) := by
  show StableHlo.after hostOps0 (W0 m ρ c) (Proc.devRef .tc main_arg2) = _
  after_results_simp

theorem first_keeps_W1r (c : Dev nD) :
    W1 m ρ c (Proc.devRef .tc main_arg3) = m ((c : Thread nD τ).loc main_arg3) := by
  show StableHlo.after hostOps0 (W0 m ρ c) (Proc.devRef .tc main_arg3) = _
  after_results_simp

theorem first_keeps_W2l (c : Dev nD) :
    W1 m ρ c (Proc.devRef .tc main_arg5) = m ((c : Thread nD τ).loc main_arg5) := by
  show StableHlo.after hostOps0 (W0 m ρ c) (Proc.devRef .tc main_arg5) = _
  after_results_simp

theorem first_keeps_W2r (c : Dev nD) :
    W1 m ρ c (Proc.devRef .tc main_arg6) = m ((c : Thread nD τ).loc main_arg6) := by
  show StableHlo.after hostOps0 (W0 m ρ c) (Proc.devRef .tc main_arg6) = _
  after_results_simp

theorem first_keeps_b2 (c : Dev nD) :
    W1 m ρ c (Proc.devRef .tc main_arg7) = m ((c : Thread nD τ).loc main_arg7) := by
  show StableHlo.after hostOps0 (W0 m ρ c) (Proc.devRef .tc main_arg7) = _
  after_results_simp

/-! ## Across the first region: it writes its output array only -/

theorem region_keeps_sources (c : Dev nD) :
    W2 m ρ c (Proc.devRef .tc main_v1) = W1 m ρ c (Proc.devRef .tc main_v1) := W2_of_ne m ρ c main_v1 (by decide)

theorem region_keeps_targets (c : Dev nD) :
    W2 m ρ c (Proc.devRef .tc main_v3) = W1 m ρ c (Proc.devRef .tc main_v3) := W2_of_ne m ρ c main_v3 (by decide)

theorem region_keeps_W2l (c : Dev nD) :
    W2 m ρ c (Proc.devRef .tc main_arg5) = W1 m ρ c (Proc.devRef .tc main_arg5) := W2_of_ne m ρ c main_arg5 (by decide)

theorem region_keeps_W2r (c : Dev nD) :
    W2 m ρ c (Proc.devRef .tc main_arg6) = W1 m ρ c (Proc.devRef .tc main_arg6) := W2_of_ne m ρ c main_arg6 (by decide)

theorem region_keeps_b2 (c : Dev nD) :
    W2 m ρ c (Proc.devRef .tc main_arg7) = W1 m ρ c (Proc.devRef .tc main_arg7) := W2_of_ne m ρ c main_arg7 (by decide)

/-! ## The second stretch -/

theorem second_mean (c : Dev nD) :
    W3 m ρ c (Proc.devRef .tc main_v43)
      = meanOver (W2 m ρ c (Proc.devRef .tc main_v1)) (W2 m ρ c (Proc.devRef .tc main_v3)) (W2 m ρ c (Proc.devRef .tc main_v24)) := by
  show StableHlo.after hostOps1 (W2 m ρ c) (Proc.devRef .tc main_v43) = _
  after_results_simp
  rfl

theorem second_bias (c : Dev nD) :
    W3 m ρ c (Proc.devRef .tc main_v44) = shapeCast S1x16 (W2 m ρ c (Proc.devRef .tc main_arg7)) shapeCasts_S16_S1x16 := by
  show StableHlo.after hostOps1 (W2 m ρ c) (Proc.devRef .tc main_v44) = _
  after_results_simp
  rfl

theorem second_keeps_hidden (c : Dev nD) :
    W3 m ρ c (Proc.devRef .tc main_v24) = W2 m ρ c (Proc.devRef .tc main_v24) := by
  show StableHlo.after hostOps1 (W2 m ρ c) (Proc.devRef .tc main_v24) = _
  after_results_simp

theorem second_keeps_W2l (c : Dev nD) :
    W3 m ρ c (Proc.devRef .tc main_arg5) = W2 m ρ c (Proc.devRef .tc main_arg5) := by
  show StableHlo.after hostOps1 (W2 m ρ c) (Proc.devRef .tc main_arg5) = _
  after_results_simp

theorem second_keeps_W2r (c : Dev nD) :
    W3 m ρ c (Proc.devRef .tc main_arg6) = W2 m ρ c (Proc.devRef .tc main_arg6) := by
  show StableHlo.after hostOps1 (W2 m ρ c) (Proc.devRef .tc main_arg6) = _
  after_results_simp

end Cert.KernelIdeal.Stretch

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Spec.lean ====
/-
  Two layers of mean-aggregating graph convolution: the arithmetic both programs agree on.

  One layer maps node features `x` (N rows of 64) and their neighbourhood means `mean` to

      out[p, q] = Σ_k mean[p, k] · Wl[k, q]  +  Σ_k x[p, k] · Wr[k, q]  +  b[q],

  the first layer followed by a maximum with zero. Everything is on the extended reals: no rounding, and a change of float
  format is the identity, so a product taken in a narrower format is the same sum. The bias is carried as a one-row
  matrix, the form in which a kernel's window sees it.

  The two programs add the three terms in different orders, (A + B) + b against (A + b) + B; addition on the extended reals is
  commutative and associative, so the two agree at every input, finite or not. Entry (p, q) depends on row p of `mean`
  and of `x` only, which is what lets a block of rows be computed from the same block of rows of the inputs.
-/
import Idealize.ShloMosaic.PureOps.Ideal.Laws
import Idealize.ShloMosaic.Lib.ValueIdx

noncomputable section

namespace Sage

open Idealize.ShloMosaic Idealize.ShloMosaic.ValueIdx

/-- Entry (p, q) of one layer before any activation: the two products over the 64 input features, then the bias. -/
def affine {N D : Nat} (mean x : FVec Ideal ⟨2, ![N, 64]⟩ .f32) (Wl Wr : FVec Ideal ⟨2, ![64, D]⟩ .f32)
    (b : FVec Ideal ⟨2, ![1, D]⟩ .f32) (p : Fin N) (q : Fin D) : Ideal .f32 :=
  (∑ k : Fin 64, mean (ix2 p k) * Wl (ix2 k q) + ∑ k : Fin 64, x (ix2 p k) * Wr (ix2 k q)) + b (ix2 (0 : Fin 1) q)

/-- Adding the bias before the second product gives the same entry: addition commutes and associates on the extended
    reals, infinite summands included. -/
theorem bias_first {N D : Nat} (mean x : FVec Ideal ⟨2, ![N, 64]⟩ .f32) (Wl Wr : FVec Ideal ⟨2, ![64, D]⟩ .f32)
    (b : FVec Ideal ⟨2, ![1, D]⟩ .f32) (p : Fin N) (q : Fin D) :
    (∑ k : Fin 64, mean (ix2 p k) * Wl (ix2 k q) + b (ix2 (0 : Fin 1) q)) + ∑ k : Fin 64, x (ix2 p k) * Wr (ix2 k q)
      = affine mean x Wl Wr b p q :=
  add_right_comm _ _ _

/-- An entry depends on its own row of the two feature arrays only: rows that agree give the same entry. -/
theorem affine_of_rows {N N' D : Nat} (mean x : FVec Ideal ⟨2, ![N, 64]⟩ .f32) (mean' x' : FVec Ideal ⟨2, ![N', 64]⟩ .f32)
    (Wl Wr : FVec Ideal ⟨2, ![64, D]⟩ .f32) (b : FVec Ideal ⟨2, ![1, D]⟩ .f32) (p : Fin N) (p' : Fin N') (q : Fin D)
    (hm : ∀ k : Fin 64, mean' (ix2 p' k) = mean (ix2 p k)) (hx : ∀ k : Fin 64, x' (ix2 p' k) = x (ix2 p k)) :
    affine mean' x' Wl Wr b p' q = affine mean x Wl Wr b p q := by
  simp only [affine, hm, hx]

/-- The first layer: the affine entry, then the maximum with zero (zero kept as the word both programs print). -/
def hidden {N : Nat} (mean x : FVec Ideal ⟨2, ![N, 64]⟩ .f32) (Wl Wr : FVec Ideal ⟨2, ![64, 64]⟩ .f32)
    (b : FVec Ideal ⟨2, ![1, 64]⟩ .f32) : FVec Ideal ⟨2, ![N, 64]⟩ .f32 :=
  fun i => max (affine mean x Wl Wr b (i 0) (i 1)) (Ideal.ofBits .f32 0x00000000#32)

/-- The second layer: the affine entry as it is. -/
def output {N : Nat} (mean x : FVec Ideal ⟨2, ![N, 64]⟩ .f32) (Wl Wr : FVec Ideal ⟨2, ![64, 16]⟩ .f32)
    (b : FVec Ideal ⟨2, ![1, 16]⟩ .f32) : FVec Ideal ⟨2, ![N, 16]⟩ .f32 :=
  fun i => affine mean x Wl Wr b (i 0) (i 1)

end Sage

end
-- ==== Proof.Body.lean ====
/-
  What each kernel body stores, entry by entry.

  A body loads a block of 5000 rows of the neighbourhood means and of the node features, the two weight matrices and the
  one-row bias, multiplies each block by its matrix into a zero accumulator, adds the two products, adds the bias row
  broadcast down the block, and (first layer only) takes the maximum with zero. On the extended reals the narrowing of the
  operands before each product is the identity and a product into zero is the plain sum over the 64 shared features, so
  the stored block is, at row p and column q, exactly the layer's affine entry of the loaded blocks.
-/
import proofs.«154100_j23630910063032_1_alg».proof.Proof.Gen.KernelIdeal.Skeleton
import proofs.«154100_j23630910063032_1_alg».proof.Proof.LibPlainDot
import proofs.«154100_j23630910063032_1_alg».proof.Proof.Spec
import Idealize.ShloMosaic.Lib.Pipeline.Value

noncomputable section

namespace Cert.KernelIdeal.Body

open Cert.KernelIdeal Cert.KernelIdeal.Gen Idealize.ShloMosaic Idealize.ShloMosaic.ValueIdx

/-- The 64-column bias row, broadcast down a block of 5000 rows, reads the row's entry of that column. -/
theorem bias_row64 (b : Vec Ideal S1x64 .f32) (p : Fin 5000) (q : Fin 64) :
    broadcastTo S5000x64 (shapeCast S1x64 b shapeCasts_S1x64_S1x64) broadcasts_S1x64_S5000x64 (ix2 p q) = b (ix2 (0 : Fin 1) q) := by
  rw [shapeCast_self]
  exact broadcastTo_apply b broadcasts_S1x64_S5000x64 (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The 16-column bias row, broadcast down a block of 5000 rows, reads the row's entry of that column. -/
theorem bias_row16 (b : Vec Ideal S1x16 .f32) (p : Fin 5000) (q : Fin 16) :
    broadcastTo S5000x16 (shapeCast S1x16 b shapeCasts_S1x16_S1x16) broadcasts_S1x16_S5000x16 (ix2 p q) = b (ix2 (0 : Fin 1) q) := by
  rw [shapeCast_self]
  exact broadcastTo_apply b broadcasts_S1x16_S5000x16 (ix2 p q) (ix2 (0 : Fin 1) q) (fun a => match a with
    | ⟨0, _⟩ => by show (0 : Nat) = if (1 : Nat) = 1 then 0 else p.val; rw [if_pos rfl]
    | ⟨1, _⟩ => by show q.val = if (16 : Nat) = 1 then 0 else q.val; rw [if_neg (by decide)])

/-- First layer: the stored block at (p, q) is the maximum of the affine entry of the loaded blocks with zero. -/
theorem stored_hidden (mean x : Vec Ideal S5000x64 .f32) (Wl Wr : Vec Ideal S64x64 .f32) (b : Vec Ideal S1x64 .f32)
    (p : Fin 5000) (q : Fin 64) :
    k0_pay1 (F := Ideal) mean x Wl Wr b (ix2 p q) = Sage.hidden mean x Wl Wr b (ix2 p q) := by
  have hA : matmul (F := Ideal) dot_S5000x64_S64x64_S5000x64_1_0_0_1_n_n none
      (truncf .bf16 (shapeCast S5000x64 mean shapeCasts_S5000x64_S5000x64) bitsLt_bf16_f32) (truncf .bf16 Wl bitsLt_bf16_f32)
      (constant S5000x64 .f32 0x00000000#32) (ix2 p q) = ∑ k : Fin 64, mean (ix2 p k) * Wl (ix2 k q) := by
    rw [shapeCast_self]; exact PlainDot.matmul_zero_apply 5000 64 64 _ _ p q
  have hB : matmul (F := Ideal) dot_S5000x64_S64x64_S5000x64_1_0_0_1_n_n none
      (truncf .bf16 x bitsLt_bf16_f32) (truncf .bf16 Wr bitsLt_bf16_f32)
      (constant S5000x64 .f32 0x00000000#32) (ix2 p q) = ∑ k : Fin 64, x (ix2 p k) * Wr (ix2 k q) :=
    PlainDot.matmul_zero_apply 5000 64 64 _ _ p q
  unfold k0_pay1
  rw [maximumf_apply, addf_apply, addf_apply, hA, hB, bias_row64]
  rfl

/-- Second layer: the stored block at (p, q) is the affine entry of the loaded blocks. -/
theorem stored_output (mean x : Vec Ideal S5000x64 .f32) (Wl Wr : Vec Ideal S64x16 .f32) (b : Vec Ideal S1x16 .f32)
    (p : Fin 5000) (q : Fin 16) :
    k1_pay1 (F := Ideal) mean x Wl Wr b (ix2 p q) = Sage.output mean x Wl Wr b (ix2 p q) := by
  have hA : matmul (F := Ideal) dot_S5000x64_S64x16_S5000x16_1_0_0_1_n_n none
      (truncf .bf16 (shapeCast S5000x64 mean shapeCasts_S5000x64_S5000x64) bitsLt_bf16_f32) (truncf .bf16 Wl bitsLt_bf16_f32)
      (constant S5000x16 .f32 0x00000000#32) (ix2 p q) = ∑ k : Fin 64, mean (ix2 p k) * Wl (ix2 k q) := by
    rw [shapeCast_self]; exact PlainDot.matmul_zero_apply 5000 64 16 _ _ p q
  have hB : matmul (F := Ideal) dot_S5000x64_S64x16_S5000x16_1_0_0_1_n_n none
      (truncf .bf16 (shapeCast S5000x64 x shapeCasts_S5000x64_S5000x64) bitsLt_bf16_f32) (truncf .bf16 Wr bitsLt_bf16_f32)
      (constant S5000x16 .f32 0x00000000#32) (ix2 p q) = ∑ k : Fin 64, x (ix2 p k) * Wr (ix2 k q) := by
    rw [shapeCast_self]; exact PlainDot.matmul_zero_apply 5000 64 16 _ _ p q
  unfold k1_pay1
  rw [addf_apply, addf_apply, hA, hB, bias_row16]
  rfl

end Cert.KernelIdeal.Body

end
-- ==== Proof.Region.lean ====
/-
  Each kernel region, from the contents it is entered with to the array it leaves.

  A region walks 20 grid points. At point t its two row-block windows hold rows 5000·t … 5000·t + 4999 of the means and of
  the features, its three small windows hold the two weight matrices and the bias row whole, and it writes back rows
  5000·t … 5000·t + 4999 of its output. An output entry depends on its own row of the inputs only, so what point t writes
  back is block t of ONE whole-array function of the entry contents: the layer of the specification. The 20 blocks tile the
  100000 rows, so after the last write-back the output array is that function everywhere.
-/
import proofs.«154100_j23630910063032_1_alg».proof.Proof.Gen.KernelIdeal.Frame
import proofs.«154100_j23630910063032_1_alg».proof.Proof.Body
import proofs.«154100_j23630910063032_1_alg».proof.Proof.Spec

set_option maxRecDepth 16384

noncomputable section

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## The first region -/

/-- The first layer of the contents the region is entered with. -/
abbrev layer0 (c : Dev nD) : FVec Ideal ⟨2, ![100000, 64]⟩ .f32 :=
  Sage.hidden (N := 100000) (V c main_v22) (V c main_arg0) (V c main_arg2) (V c main_arg3) (V c main_v23)

/-- The index maps over the 20 points: the row-block windows (means, features, output) sit at block t of the rows, column
    block 0; the weight and bias windows stay at block (0, 0). -/
theorem maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block of 5000 rows is some point's. -/
theorem onto0 : ∀ r : Fin 20, ∃ t : Fin cfg0.N, t.val = r.val :=
  (by decide +kernel : ∀ r : Fin 20, ∃ t : Fin grid0.N, t.val = r.val)

/-- One point of the first region: from blocks that are rows 5000·t … of the entry contents, the stored entry (p, q) is the
    layer's entry at row 5000·t + p. -/
theorem point0 (mean x : FVec Ideal ⟨2, ![100000, 64]⟩ .f32) (Wl Wr : FVec Ideal ⟨2, ![64, 64]⟩ .f32) (b : FVec Ideal ⟨2, ![1, 64]⟩ .f32)
    (bm bx : Vec Ideal S5000x64 .f32) (bWl bWr : Vec Ideal S64x64 .f32) (bb : Vec Ideal S1x64 .f32)
    (P : Fin 100000) (p : Fin 5000) (q : Fin 64)
    (hm : ∀ k : Fin 64, bm (ix2 p k) = mean (ix2 P k)) (hx : ∀ k : Fin 64, bx (ix2 p k) = x (ix2 P k))
    (hWl : ∀ y, bWl y = Wl y) (hWr : ∀ y, bWr y = Wr y) (hb : ∀ y, bb y = b y) :
    k0_pay1 (F := Ideal) bm bx bWl bWr bb (ix2 p q) = Sage.hidden mean x Wl Wr b (ix2 P q) := by
  obtain rfl : bWl = Wl := funext hWl
  obtain rfl : bWr = Wr := funext hWr
  obtain rfl : bb = b := funext hb
  rw [Body.stored_hidden]
  unfold Sage.hidden
  exact congrArg (fun v => max v (Ideal.ofBits .f32 0x00000000#32)) (Sage.affine_of_rows mean x bm bx bWl bWr bb P p q hm hx)

/-- What point t writes back is block t of the first layer of the entry contents. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero origin]
  simp only [View.ld_unit_zero (S := S5000x64) origin, View.ld_unit_zero (S := S64x64) origin, View.ld_unit_zero (S := S1x64) origin]
  obtain ⟨e00, e01, e10, e11, e20, e21, e30, e31, e40, e41, e50, e51⟩ := maps0 t
  have ht : t.val < 20 := t.isLt
  funext j
  obtain ⟨p, q, rfl⟩ : ∃ (p : Fin 5000) (q : Fin 64), j = ix2 p q := ⟨j 0, j 1, eq_ix2 j⟩
  have hp : p.val < 5000 := p.isLt
  have hE : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (F := Ideal) (iblk0 V c 0 t) (iblk0 V c 1 t) (iblk0 V c 2 t) (iblk0 V c 3 t) (iblk0 V c 4 t) (ix2 p q)
      = layer0 V c (((cfg0.win 5).blk t).view.emb (ix2 p q))
  rw [hE]
  refine point0 (V c main_v22) (V c main_arg0) (V c main_arg2) (V c main_arg3) (V c main_v23)
    (iblk0 V c 0 t) (iblk0 V c 1 t) (iblk0 V c 2 t) (iblk0 V c 3 t) (iblk0 V c 4 t) _ p q ?_ ?_ ?_ ?_ ?_
  · intro k
    show V c main_v22 (((cfg0.win 0).blk t).view.emb (ix2 p k)) = V c main_v22 _
    refine congrArg (V c main_v22) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · intro k
    show V c main_arg0 (((cfg0.win 1).blk t).view.emb (ix2 p k)) = V c main_arg0 _
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  · intro y
    show V c main_arg2 (((cfg0.win 2).blk t).view.emb y) = V c main_arg2 y
    refine congrArg (V c main_arg2) (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · intro y
    show V c main_arg3 (((cfg0.win 3).blk t).view.emb y) = V c main_arg3 y
    refine congrArg (V c main_arg3) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · intro y
    show V c main_v23 (((cfg0.win 4).blk t).view.emb y) = V c main_v23 y
    refine congrArg (V c main_v23) (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega

/-- An index of the output array is in point t's block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- The 20 blocks of 5000 rows tile the output array. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := onto0 ⟨(i 0).val / 5000, by omega⟩
  have ht' : t.val = (i 0).val / 5000 := ht
  obtain ⟨e00, e01, e10, e11, e20, e21, e30, e31, e40, e41, e50, e51⟩ := maps0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The first region's output array, after its last write-back, is the first layer of the contents it was entered with. -/
theorem final0 (c : Dev nD) : (dat0 V c).arrAt 5 cfg0.N = layer0 V c :=
  (dat0 V c).arrAt_eq_of_cover 5 (layer0 V c) (fun t _ => flushed0 V c t) (cover0)

/-! ## The second region -/

/-- The second layer of the contents the region is entered with. -/
abbrev layer1 (c : Dev nD) : FVec Ideal ⟨2, ![100000, 16]⟩ .f32 :=
  Sage.output (N := 100000) (V c main_v43) (V c main_v24) (V c main_arg5) (V c main_arg6) (V c main_v44)

/-- The index maps over the 20 points, as in the first region. -/
theorem maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block of 5000 rows is some point's. -/
theorem onto1 : ∀ r : Fin 20, ∃ t : Fin cfg1.N, t.val = r.val :=
  (by decide +kernel : ∀ r : Fin 20, ∃ t : Fin grid1.N, t.val = r.val)

/-- One point of the second region: from blocks that are rows 5000·t … of the entry contents, the stored entry (p, q) is
    the layer's entry at row 5000·t + p. -/
theorem point1 (mean x : FVec Ideal ⟨2, ![100000, 64]⟩ .f32) (Wl Wr : FVec Ideal ⟨2, ![64, 16]⟩ .f32) (b : FVec Ideal ⟨2, ![1, 16]⟩ .f32)
    (bm bx : Vec Ideal S5000x64 .f32) (bWl bWr : Vec Ideal S64x16 .f32) (bb : Vec Ideal S1x16 .f32)
    (P : Fin 100000) (p : Fin 5000) (q : Fin 16)
    (hm : ∀ k : Fin 64, bm (ix2 p k) = mean (ix2 P k)) (hx : ∀ k : Fin 64, bx (ix2 p k) = x (ix2 P k))
    (hWl : ∀ y, bWl y = Wl y) (hWr : ∀ y, bWr y = Wr y) (hb : ∀ y, bb y = b y) :
    k1_pay1 (F := Ideal) bm bx bWl bWr bb (ix2 p q) = Sage.output mean x Wl Wr b (ix2 P q) := by
  obtain rfl : bWl = Wl := funext hWl
  obtain rfl : bWr = Wr := funext hWr
  obtain rfl : bb = b := funext hb
  rw [Body.stored_output]
  unfold Sage.output
  exact Sage.affine_of_rows mean x bm bx bWl bWr bb P p q hm hx

/-- What point t writes back is block t of the second layer of the entry contents. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero origin]
  simp only [View.ld_unit_zero (S := S5000x64) origin, View.ld_unit_zero (S := S64x16) origin, View.ld_unit_zero (S := S1x16) origin]
  obtain ⟨e00, e01, e10, e11, e20, e21, e30, e31, e40, e41, e50, e51⟩ := maps1 t
  have ht : t.val < 20 := t.isLt
  funext j
  obtain ⟨p, q, rfl⟩ : ∃ (p : Fin 5000) (q : Fin 16), j = ix2 p q := ⟨j 0, j 1, eq_ix2 j⟩
  have hp : p.val < 5000 := p.isLt
  have hE : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 16 + 1 * q.val = q.val; omega
  show k1_pay1 (F := Ideal) (iblk1 V c 0 t) (iblk1 V c 1 t) (iblk1 V c 2 t) (iblk1 V c 3 t) (iblk1 V c 4 t) (ix2 p q)
      = layer1 V c (((cfg1.win 5).blk t).view.emb (ix2 p q))
  rw [hE]
  refine point1 (V c main_v43) (V c main_v24) (V c main_arg5) (V c main_arg6) (V c main_v44)
    (iblk1 V c 0 t) (iblk1 V c 1 t) (iblk1 V c 2 t) (iblk1 V c 3 t) (iblk1 V c 4 t) _ p q ?_ ?_ ?_ ?_ ?_
  · intro k
    show V c main_v43 (((cfg1.win 0).blk t).view.emb (ix2 p k)) = V c main_v43 _
    refine congrArg (V c main_v43) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k
    show V c main_v24 (((cfg1.win 1).blk t).view.emb (ix2 p k)) = V c main_v24 _
    refine congrArg (V c main_v24) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  · intro y
    show V c main_arg5 (((cfg1.win 2).blk t).view.emb y) = V c main_arg5 y
    refine congrArg (V c main_arg5) (funext fun a => Fin.ext ?_)
    match a with
    | ⟨0, _⟩ => show win1_2.index t (0 : Fin 2) * 64 + 1 * (y 0).val = (y 0).val; omega
    | ⟨1, _⟩ => show win1_2.index t (1 : Fin 2) * 16 + 1 * (y 1).val = (y 1).val; omega
  · intro y
    show V c main_arg6 (((cfg1.win 3).blk t).view.emb y) = V c main_arg6 y
    refine congrArg (V c main_arg6) (funext fun a => Fin.ext ?_)
    match a with
    | ⟨0, _⟩ => show win1_3.index t (0 : Fin 2) * 64 + 1 * (y 0).val = (y 0).val; omega
    | ⟨1, _⟩ => show win1_3.index t (1 : Fin 2) * 16 + 1 * (y 1).val = (y 1).val; omega
  · intro y
    show V c main_v44 (((cfg1.win 4).blk t).view.emb y) = V c main_v44 y
    refine congrArg (V c main_v44) (funext fun a => Fin.ext ?_)
    match a with
    | ⟨0, _⟩ => show win1_4.index t (0 : Fin 2) * 1 + 1 * (y 0).val = (y 0).val; omega
    | ⟨1, _⟩ => show win1_4.index t (1 : Fin 2) * 16 + 1 * (y 1).val = (y 1).val; omega

/-- An index of the output array is in point t's block iff each coordinate is in the block's range on its axis. -/
theorem mem_blk1 (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v45).slice (win1_5.rect t)).set ↔ _
  rw [View.set_slice_whole, Rect.mem_set_unit]
  exact Iff.rfl

/-- The 20 blocks of 5000 rows tile the output array. -/
theorem cover1 (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  obtain ⟨t, ht⟩ := onto1 ⟨(i 0).val / 5000, by omega⟩
  have ht' : t.val = (i 0).val / 5000 := ht
  obtain ⟨e00, e01, e10, e11, e20, e21, e30, e31, e40, e41, e50, e51⟩ := maps1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 16 ≤ (i 1).val ∧ (i 1).val < win1_5.index t (1 : Fin 2) * 16 + 16; omega

/-- The second region's output array, after its last write-back, is the second layer of the contents it was entered with. -/
theorem final1 (c : Dev nD) : (dat1 V c).arrAt 5 cfg1.N = layer1 V c :=
  (dat1 V c).arrAt_eq_of_cover 5 (layer1 V c) (fun t _ => flushed1 V c t) (cover1)

end Cert.KernelIdeal.Region

end
-- ==== Proof.KernelValue.lean ====
/-
  The kernel program's result as one expression of its arguments.

  Following the buffers through the run: the first stretch leaves the mean of the input features and the first bias as a
  one-row matrix; the first region turns them, with the features and the first pair of weights, into the first layer's
  output; the second stretch takes the mean of that output over the same edges and reshapes the second bias; the second
  region leaves the second layer of that mean and of the first layer's output in the result array.
-/
import proofs.«154100_j23630910063032_1_alg».proof.Proof.KernelRun
import proofs.«154100_j23630910063032_1_alg».proof.Proof.KernelHost
import proofs.«154100_j23630910063032_1_alg».proof.Proof.Region

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first layer's output, of the launch contents of the arguments. -/
def hiddenOf (c : Dev nD) : FVec Ideal ⟨2, ![100000, 64]⟩ .f32 :=
  Sage.hidden (N := 100000)
    (Stretch.meanOver (Stretch.sources (m ((c : Thread nD τ).loc main_arg1))) (Stretch.targets (m ((c : Thread nD τ).loc main_arg1))) (m ((c : Thread nD τ).loc main_arg0)))
    (m ((c : Thread nD τ).loc main_arg0)) (m ((c : Thread nD τ).loc main_arg2)) (m ((c : Thread nD τ).loc main_arg3))
    (shapeCast S1x64 (m ((c : Thread nD τ).loc main_arg4)) shapeCasts_S64_S1x64)

/-- The program's result, of the launch contents of the arguments. -/
def resultOf (c : Dev nD) : FVec Ideal ⟨2, ![100000, 16]⟩ .f32 :=
  Sage.output (N := 100000)
    (Stretch.meanOver (Stretch.sources (m ((c : Thread nD τ).loc main_arg1))) (Stretch.targets (m ((c : Thread nD τ).loc main_arg1))) (hiddenOf m c))
    (hiddenOf m c) (m ((c : Thread nD τ).loc main_arg5)) (m ((c : Thread nD τ).loc main_arg6))
    (shapeCast S1x16 (m ((c : Thread nD τ).loc main_arg7)) shapeCasts_S16_S1x16)

/-- After the first region its output array holds the first layer's output. -/
theorem hidden_array (c : Dev nD) : W2 m ρ c (Proc.devRef .tc main_v24) = hiddenOf m c := by
  refine (W2_arr m ρ c 5).trans ((Region.final0 (V1 m ρ) c).trans ?_)
  show Sage.hidden (N := 100000) (W1 m ρ c (Proc.devRef .tc main_v22)) (W1 m ρ c (Proc.devRef .tc main_arg0))
      (W1 m ρ c (Proc.devRef .tc main_arg2)) (W1 m ρ c (Proc.devRef .tc main_arg3)) (W1 m ρ c (Proc.devRef .tc main_v23)) = _
  rw [Stretch.first_mean, Stretch.first_keeps_features, Stretch.first_keeps_W1l, Stretch.first_keeps_W1r, Stretch.first_bias]
  rfl

/-- After the second region the result array holds the second layer over the first. -/
theorem result_array (c : Dev nD) : W4 m ρ c (Proc.devRef .tc main_v45) = resultOf m c := by
  refine (W4_arr m ρ c 5).trans ((Region.final1 (V3 m ρ) c).trans ?_)
  show Sage.output (N := 100000) (W3 m ρ c (Proc.devRef .tc main_v43)) (W3 m ρ c (Proc.devRef .tc main_v24))
      (W3 m ρ c (Proc.devRef .tc main_arg5)) (W3 m ρ c (Proc.devRef .tc main_arg6)) (W3 m ρ c (Proc.devRef .tc main_v44)) = _
  rw [Stretch.second_mean, Stretch.second_keeps_hidden, Stretch.second_keeps_W2l, Stretch.second_keeps_W2r, Stretch.second_bias,
    Stretch.region_keeps_sources, Stretch.region_keeps_targets, Stretch.region_keeps_W2l, Stretch.region_keeps_W2r,
    Stretch.region_keeps_b2, Stretch.first_sources, Stretch.first_targets, Stretch.first_keeps_W2l, Stretch.first_keeps_W2r,
    Stretch.first_keeps_b2, hidden_array]
  rfl

/-- The program runs, its result array ends at `resultOf` of the arguments, and its arguments end as launched. -/
theorem run : θ_run defs (onTc (τ := τ) (main (F := Ideal))) ⟨m, fun _ => 0, ρ⟩ (fun r => ∀ c : Dev nD,
      r.2.mem ((c.tc : Thread nD τ).loc main_v45) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_array m ρ c), (h c).2⟩) (Run.run_result m ρ)

end Cert.KernelIdeal.Result

end
-- ==== Proof.RefLayers.lean ====
/-
  The reference program, layer by layer, as the specification's layers.

  The reference computes each layer with whole-array operations: the mean over incoming edges, one product with the left
  weights, the bias broadcast over the rows and added, the product of the features with the right weights added last, and
  after the first layer a maximum with zero. Read at an entry, each product is the sum over the 64 shared features, so a
  layer's entry is (Σ mean·Wl + b) + Σ x·Wr: the specification's affine entry with the bias added first, equal to it by
  commutativity and associativity of addition. The second layer's mean is the first layer's aggregation applied to the
  first layer's output, by the very same chain of operations on the same edge array.
-/
import proofs.«154100_j23630910063032_1_alg».proof.Proof.Gen.ReferenceIdeal.Read
import proofs.«154100_j23630910063032_1_alg».proof.Proof.Spec

set_option maxRecDepth 16384

noncomputable section

namespace Cert.ReferenceIdeal.Layers

open Cert.ReferenceIdeal Cert.ReferenceIdeal.Gen Cert.ReferenceIdeal.Read
open Idealize.ShloMosaic Idealize.ShloMosaic.ValueIdx

/-- The first layer with its activation is the specification's first layer of the mean of the input features, the bias
    carried as a one-row matrix. -/
theorem hidden_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64x64, .f32⟩ : BufTy).Contents (Elt Ideal)) (x4 : (⟨S64, .f32⟩ : BufTy).Contents (Elt Ideal)) :
    val_main_v29 (F := Ideal) x0 x1 x2 x3 x4
      = Sage.hidden (N := 100000) (val_main_v22 (F := Ideal) x0 x1) x0 x2 x3 (val_main_v24 (F := Ideal) x4) := by
  funext i
  obtain ⟨p, q, rfl⟩ : ∃ (p : Fin 100000) (q : Fin 64), i = ix2 p q := ⟨i 0, i 1, eq_ix2 i⟩
  have l23 : ∀ k : Fin 64, lidx_main_v23 (ix2 p q) k = ix2 p k := fun k => funext fun a => by
    match a with | ⟨0, _⟩ => rfl | ⟨1, _⟩ => rfl
  have r23 : ∀ k : Fin 64, ridx_main_v23 (ix2 p q) k = ix2 k q := fun k => funext fun a => by
    match a with | ⟨0, _⟩ => rfl | ⟨1, _⟩ => rfl
  have l27 : ∀ k : Fin 64, lidx_main_v27 (ix2 p q) k = ix2 p k := fun k => funext fun a => by
    match a with | ⟨0, _⟩ => rfl | ⟨1, _⟩ => rfl
  have r27 : ∀ k : Fin 64, ridx_main_v27 (ix2 p q) k = ix2 k q := fun k => funext fun a => by
    match a with | ⟨0, _⟩ => rfl | ⟨1, _⟩ => rfl
  have i25 : idx_main_v25 (ix2 p q) = ix2 (0 : Fin 1) q := funext fun a => by
    match a with | ⟨0, _⟩ => rfl | ⟨1, _⟩ => rfl
  rw [val_main_v29_apply, val_main_v28_apply, val_main_v26_apply, val_main_v23_apply, val_main_v27_apply, val_main_v25_apply,
    val_main_call0_v0_apply, val_main_call0_cst_apply]
  simp only [l23, r23, l27, r27, i25]
  exact congrArg (fun v => max v (Ideal.ofBits .f32 0x00000000#32))
    (Sage.bias_first (val_main_v22 (F := Ideal) x0 x1) x0 x2 x3 (val_main_v24 (F := Ideal) x4) p q)

/-- The mean taken for the second layer is the first layer's aggregation, applied to the first layer's output over the
    same edges. -/
theorem second_mean_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64x64, .f32⟩ : BufTy).Contents (Elt Ideal)) (x4 : (⟨S64, .f32⟩ : BufTy).Contents (Elt Ideal)) :
    val_main_v52 (F := Ideal) x0 x1 x2 x3 x4 = val_main_v22 (F := Ideal) (val_main_v29 (F := Ideal) x0 x1 x2 x3 x4) x1 := rfl

/-- The second layer is the specification's second layer of that mean and of the first layer's output. -/
theorem output_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64x64, .f32⟩ : BufTy).Contents (Elt Ideal)) (x4 : (⟨S64, .f32⟩ : BufTy).Contents (Elt Ideal)) (x5 : (⟨S64x16, .f32⟩ : BufTy).Contents (Elt Ideal)) (x6 : (⟨S64x16, .f32⟩ : BufTy).Contents (Elt Ideal)) (x7 : (⟨S16, .f32⟩ : BufTy).Contents (Elt Ideal)) :
    val_main_v58 (F := Ideal) x0 x1 x2 x3 x4 x5 x6 x7
      = Sage.output (N := 100000) (val_main_v52 (F := Ideal) x0 x1 x2 x3 x4) (val_main_v29 (F := Ideal) x0 x1 x2 x3 x4) x5 x6
          (val_main_v54 (F := Ideal) x7) := by
  funext i
  obtain ⟨p, q, rfl⟩ : ∃ (p : Fin 100000) (q : Fin 16), i = ix2 p q := ⟨i 0, i 1, eq_ix2 i⟩
  have l53 : ∀ k : Fin 64, lidx_main_v53 (ix2 p q) k = ix2 p k := fun k => funext fun a => by
    match a with | ⟨0, _⟩ => rfl | ⟨1, _⟩ => rfl
  have r53 : ∀ k : Fin 64, ridx_main_v53 (ix2 p q) k = ix2 k q := fun k => funext fun a => by
    match a with | ⟨0, _⟩ => rfl | ⟨1, _⟩ => rfl
  have l57 : ∀ k : Fin 64, lidx_main_v57 (ix2 p q) k = ix2 p k := fun k => funext fun a => by
    match a with | ⟨0, _⟩ => rfl | ⟨1, _⟩ => rfl
  have r57 : ∀ k : Fin 64, ridx_main_v57 (ix2 p q) k = ix2 k q := fun k => funext fun a => by
    match a with | ⟨0, _⟩ => rfl | ⟨1, _⟩ => rfl
  have i55 : idx_main_v55 (ix2 p q) = ix2 (0 : Fin 1) q := funext fun a => by
    match a with | ⟨0, _⟩ => rfl | ⟨1, _⟩ => rfl
  rw [val_main_v58_apply, val_main_v56_apply, val_main_v53_apply, val_main_v57_apply, val_main_v55_apply]
  simp only [l53, r53, l57, r57, i55]
  exact Sage.bias_first (val_main_v52 (F := Ideal) x0 x1 x2 x3 x4) (val_main_v29 (F := Ideal) x0 x1 x2 x3 x4) x5 x6
    (val_main_v54 (F := Ideal) x7) p q

end Cert.ReferenceIdeal.Layers

end
-- ==== Proof.Bridge.lean ====
/-
  The two programs compute one function.

  The kernel program's result is the second layer over the first, each layer's mean taken by the chain of gather, sums into
  the targets and division by the in-degree; the reference's result is the same two layers with the bias added before the
  second product. Three things join them: the aggregation chain of the kernel program is the reference's own chain,
  operation for operation on the same edge array (so the two terms are one); the bias row the kernel program makes by a
  reshape and the one the reference makes by a broadcast both read the bias vector at the entry's column; and the layers
  agree by the specification's additive law.
-/
import proofs.«154100_j23630910063032_1_alg».proof.Proof.KernelValue
import proofs.«154100_j23630910063032_1_alg».proof.Proof.RefLayers

set_option maxRecDepth 16384

noncomputable section

namespace Cert.Bridge

open Cert.KernelIdeal Cert.KernelIdeal.Gen
open Idealize.ShloMosaic Idealize.ShloMosaic.ValueIdx

/-- The kernel program's mean over incoming edges is the reference's: the same operations on the same arrays. -/
theorem mean_same (e : (⟨Cert.KernelIdeal.S2x1600000, .i32⟩ : BufTy).Contents (Elt Ideal)) (feat : (⟨Cert.KernelIdeal.S100000x64, .f32⟩ : BufTy).Contents (Elt Ideal)) :
    Stretch.meanOver (F := Ideal) (Stretch.sources e) (Stretch.targets e) feat
      = Cert.ReferenceIdeal.Read.val_main_v22 (F := Ideal) feat e := rfl

/-- The first bias as a one-row matrix: reshaped or broadcast, entry (0, q) is the vector's entry q. -/
theorem bias64_same (b : (⟨Cert.KernelIdeal.S64, .f32⟩ : BufTy).Contents (Elt Ideal)) :
    shapeCast S1x64 b shapeCasts_S64_S1x64 = Cert.ReferenceIdeal.Read.val_main_v24 (F := Ideal) b := by
  funext j
  rw [Cert.ReferenceIdeal.Read.val_main_v24_apply]
  exact shapeCast_apply b shapeCasts_S64_S1x64 j (Cert.ReferenceIdeal.Read.idx_main_v24 j)
    (by rewrite [Shape.rowMajor_val_one, Shape.rowMajor_val_two]
        have h0 : (j 0).val < 1 := (j 0).isLt
        show (j 1).val = (j 0).val * 64 + (j 1).val
        omega)

/-- The second bias as a one-row matrix, likewise. -/
theorem bias16_same (b : (⟨Cert.KernelIdeal.S16, .f32⟩ : BufTy).Contents (Elt Ideal)) :
    shapeCast S1x16 b shapeCasts_S16_S1x16 = Cert.ReferenceIdeal.Read.val_main_v54 (F := Ideal) b := by
  funext j
  rw [Cert.ReferenceIdeal.Read.val_main_v54_apply]
  exact shapeCast_apply b shapeCasts_S16_S1x16 j (Cert.ReferenceIdeal.Read.idx_main_v54 j)
    (by rewrite [Shape.rowMajor_val_one, Shape.rowMajor_val_two]
        have h0 : (j 0).val < 1 := (j 0).isLt
        show (j 1).val = (j 0).val * 16 + (j 1).val
        omega)

/-- The reference's result term is the second layer over the first, written with the kernel program's aggregation and
    bias rows. -/
theorem value_same (x0 : (⟨Cert.KernelIdeal.S100000x64, .f32⟩ : BufTy).Contents (Elt Ideal)) (x1 : (⟨Cert.KernelIdeal.S2x1600000, .i32⟩ : BufTy).Contents (Elt Ideal))
    (x2 x3 : (⟨Cert.KernelIdeal.S64x64, .f32⟩ : BufTy).Contents (Elt Ideal)) (x4 : (⟨Cert.KernelIdeal.S64, .f32⟩ : BufTy).Contents (Elt Ideal))
    (x5 x6 : (⟨Cert.KernelIdeal.S64x16, .f32⟩ : BufTy).Contents (Elt Ideal)) (x7 : (⟨Cert.KernelIdeal.S16, .f32⟩ : BufTy).Contents (Elt Ideal)) :
    Cert.ReferenceIdeal.Read.val_main_v58 (F := Ideal) x0 x1 x2 x3 x4 x5 x6 x7
      = Sage.output (N := 100000)
          (Stretch.meanOver (Stretch.sources x1) (Stretch.targets x1)
            (Sage.hidden (N := 100000) (Stretch.meanOver (Stretch.sources x1) (Stretch.targets x1) x0) x0 x2 x3
              (shapeCast S1x64 x4 shapeCasts_S64_S1x64)))
          (Sage.hidden (N := 100000) (Stretch.meanOver (Stretch.sources x1) (Stretch.targets x1) x0) x0 x2 x3
            (shapeCast S1x64 x4 shapeCasts_S64_S1x64))
          x5 x6 (shapeCast S1x16 x7 shapeCasts_S16_S1x16) := by
  rw [Cert.ReferenceIdeal.Layers.output_eq, Cert.ReferenceIdeal.Layers.second_mean_eq, Cert.ReferenceIdeal.Layers.hidden_eq,
    mean_same, mean_same, bias64_same, bias16_same]

end Cert.Bridge

end
-- ==== Proof.lean ====
/-
  Two layers of mean-aggregating graph convolution over 100000 nodes and 1600000 edges: a kernel program against a plain
  array program.

  Each layer is  out = mean · Wl + x · Wr + b,  where row i of `mean` is the average of the feature rows of the sources of
  the edges into node i (the sum divided by the larger of the in-degree and one); the first layer is followed by a maximum
  with zero and feeds the second. In the kernel program the aggregation stays with the host operations and each layer's
  products, bias and activation are a pipelined kernel over 20 blocks of 5000 rows, its operands narrowed to 16 bits before
  each product; the reference does everything with whole-array operations and adds the bias before the second product.

  On the extended reals narrowing is the identity and a product into a zero accumulator is the plain sum over the 64 shared
  features, so block by block each kernel leaves exactly the layer of the specification (Proof/Body.lean, Proof/Region.lean);
  the host operations around the kernels are followed buffer by buffer (Proof/KernelHost.lean, Proof/KernelValue.lean), the
  aggregation carried as one unopened function since both programs apply the same chain; the reference's layers are the
  specification's up to the order of the three summands (Proof/RefLayers.lean), which commutativity and associativity of
  addition settle with no finiteness needed; and the two results are one term (Proof/Bridge.lean).

  The frames are the generated ones; the idealization rewrote no operation, so there is nothing to preserve.
-/
import proofs.«154100_j23630910063032_1_alg».proof.Defs
import proofs.«154100_j23630910063032_1_alg».proof.Proof.Gen.Kernel
import proofs.«154100_j23630910063032_1_alg».proof.Proof.Gen.Kernel.Frame
import proofs.«154100_j23630910063032_1_alg».proof.Proof.Gen.KernelIdeal
import proofs.«154100_j23630910063032_1_alg».proof.Proof.Gen.KernelIdeal.Frame
import proofs.«154100_j23630910063032_1_alg».proof.Proof.Gen.ReferenceIdeal
import proofs.«154100_j23630910063032_1_alg».proof.Proof.Gen.Pre_finite_inputs
import proofs.«154100_j23630910063032_1_alg».proof.Proof.Gen.ReferenceIdeal.Run
import proofs.«154100_j23630910063032_1_alg».proof.Proof.Gen.ReferenceIdeal.Read
import proofs.«154100_j23630910063032_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program is the kernel program's own text read on the extended reals. -/
theorem preserves : Cert.preserves_Kernel_KernelIdeal := trivial

/-- From memories that agree on the eight arguments both programs run and end with the same result array: the second
    layer over the first, of the arguments. -/
theorem algebraic : Cert.algebraic_KernelIdeal_ReferenceIdeal := by
  intro m ρ m' ρ' _ hagree
  refine ⟨fun c => Cert.KernelIdeal.Result.resultOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v58_eq, h0, h1, h2, h3, h4, h5, h6, h7]
  exact Cert.Bridge.value_same _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
